-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x32 : Shape := ⟨2, ![1600000, 32]⟩
abbrev S1600000x16 : Shape := ⟨2, ![1600000, 16]⟩
abbrev S80x80 : Shape := ⟨2, ![80, 80]⟩
abbrev S80 : Shape := ⟨1, ![80]⟩
abbrev S80x16 : Shape := ⟨2, ![80, 16]⟩
abbrev S16 : Shape := ⟨1, ![16]⟩
abbrev S_ : Shape := ⟨0, ![]⟩

class Facts : Prop where
  bcast_S_S1600000x32 : S_.BroadcastsInDim S1600000x32 (![] : Fin 0 → Fin S1600000x32.rank)
  reducesTo_S1600000x32_S_d0_1 : S1600000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S80x80 : S_.BroadcastsInDim S80x80 (![] : Fin 0 → Fin S80x80.rank)
  reducesTo_S80x80_S_d0_1 : S80x80.ReducesTo [0, 1] S_
  bcast_S_S80 : S_.BroadcastsInDim S80 (![] : Fin 0 → Fin S80.rank)
  reducesTo_S80_S_d0 : S80.ReducesTo [0] S_
  bcast_S_S80x16 : S_.BroadcastsInDim S80x16 (![] : Fin 0 → Fin S80x16.rank)
  reducesTo_S80x16_S_d0_1 : S80x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S80 .f32) (main_arg5 : FVec F S80x16 .f32) (main_arg6 : FVec F S16 .f32) (main_v13 : IVec S_ 1) (main_v16 : IVec S80x80 1) : IVec S_ 1 :=
  let main_c_5 : IVec S_ 1 := constantI S_ 1 1#1
  let main_v17 : IVec S_ 1 := (fun x v => Host.reduce IntOp.andi x v reducesTo_S80x80_S_d0_1 h_S_) main_v16 main_c_5
  let main_v18 : IVec S_ 1 := andi main_v13 main_v17
  let main_v19 : FVec F S80 .f32 := Host.absf main_arg4
  let main_cst_6 : FVec F S_ .f32 := constant S_ .f32 0x7F800000#32
  let main_v20 : FVec F S80 .f32 := broadcastInDim S80 ![] bcast_S_S80 main_cst_6
  let main_v21 : IVec S80 1 := cmpf .olt main_v19 main_v20
  let main_c_7 : IVec S_ 1 := constantI S_ 1 1#1
  let main_v22 : IVec S_ 1 := (fun x v => Host.reduce IntOp.andi x v reducesTo_S80_S_d0 h_S_) main_v21 main_c_7
  let main_v23 : IVec S_ 1 := andi main_v18 main_v22
  let main_v24 : FVec F S80x16 .f32 := Host.absf main_arg5
  let main_cst_8 : FVec F S_ .f32 := constant S_ .f32 0x7F800000#32
  let main_v25 : FVec F S80x16 .f32 := broadcastInDim S80x16 ![] bcast_S_S80x16 main_cst_8
  let main_v26 : IVec S80x16 1 := cmpf .olt main_v24 main_v25
  let main_c_9 : IVec S_ 1 := constantI S_ 1 1#1
  let main_v27 : IVec S_ 1 := (fun x v => Host.reduce IntOp.andi x v reducesTo_S80x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S1600000x32 .f32) (main_arg1 : FVec F S1600000x32 .f32) (main_arg2 : FVec F S1600000x16 .f32) (main_arg3 : FVec F S80x80 .f32) (main_arg4 : FVec F S80 .f32) (main_arg5 : FVec F S80x16 .f32) (main_arg6 : FVec F S16 .f32) : IVec S_ 1 :=
  let main_v0 : FVec F S1600000x32 .f32 := Host.absf main_arg0
  let main_cst : FVec F S_ .f32 := constant S_ .f32 0x7F800000#32
  let main_v1 : FVec F S1600000x32 .f32 := broadcastInDim S1600000x32 ![] bcast_S_S1600000x32 main_cst
  let main_v2 : IVec S1600000x32 1 := cmpf .olt main_v0 main_v1
  let main_c : IVec S_ 1 := constantI S_ 1 1#1
  let main_v3 : IVec S_ 1 := (fun x v => Host.reduce IntOp.andi x v reducesTo_S1600000x32_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S1600000x16 .f32 := Host.absf main_arg2
  let main_cst_2 : FVec F S_ .f32 := constant S_ .f32 0x7F800000#32
  let main_v10 : FVec F S1600000x16 .f32 := broadcastInDim S1600000x16 ![] bcast_S_S1600000x16 main_cst_2
  let main_v11 : IVec S1600000x16 1 := cmpf .olt main_v9 main_v10
  let main_c_3 : IVec S_ 1 := constantI S_ 1 1#1
  let main_v12 : IVec S_ 1 := (fun x v => Host.reduce IntOp.andi x v reducesTo_S1600000x16_S_d0_1 h_S_) main_v11 main_c_3
  let main_v13 : IVec S_ 1 := andi main_v8 main_v12
  let main_v14 : FVec F S80x80 .f32 := Host.absf main_arg3
  let main_cst_4 : FVec F S_ .f32 := constant S_ .f32 0x7F800000#32
  let main_v15 : FVec F S80x80 .f32 := broadcastInDim S80x80 ![] bcast_S_S80x80 main_cst_4
  let main_v16 : IVec S80x80 1 := cmpf .olt main_v14 main_v15
  fn_part1 (F := F) main_arg4 main_arg5 main_arg6 main_v13 main_v16
-- ==== Kernel.lean ====
abbrev S1600000x32 : Shape := ⟨2, ![1600000, 32]⟩
abbrev S1600000x16 : Shape := ⟨2, ![1600000, 16]⟩
abbrev S80x80 : Shape := ⟨2, ![80, 80]⟩
abbrev S80 : Shape := ⟨1, ![80]⟩
abbrev S80x16 : Shape := ⟨2, ![80, 16]⟩
abbrev S16 : Shape := ⟨1, ![16]⟩
abbrev S32x80 : Shape := ⟨2, ![32, 80]⟩
abbrev S16x80 : Shape := ⟨2, ![16, 80]⟩
abbrev S1x80 : Shape := ⟨2, ![1, 80]⟩
abbrev S1x16 : Shape := ⟨2, ![1, 16]⟩
abbrev S16000x32 : Shape := ⟨2, ![16000, 32]⟩
abbrev S16000x16 : Shape := ⟨2, ![16000, 16]⟩
abbrev S16000x80 : Shape := ⟨2, ![16000, 80]⟩

abbrev nBuf : Space → Nat
  | .hbm => 13
  | .vmem => 14
  | .smem => 0
  | _ => 0

abbrev bufTy : (tb : Table) → Fin (tcTables nBuf tb) → BufTy
  | .hbm, ⟨0, _⟩ => ⟨S1600000x32, .f32⟩
  | .hbm, ⟨1, _⟩ => ⟨S1600000x32, .f32⟩
  | .hbm, ⟨2, _⟩ => ⟨S1600000x16, .f32⟩
  | .hbm, ⟨3, _⟩ => ⟨S80x80, .f32⟩
  | .hbm, ⟨4, _⟩ => ⟨S80, .f32⟩
  | .hbm, ⟨5, _⟩ => ⟨S80x16, .f32⟩
  | .hbm, ⟨6, _⟩ => ⟨S16, .f32⟩
  | .hbm, ⟨7, _⟩ => ⟨S32x80, .f32⟩
  | .hbm, ⟨8, _⟩ => ⟨S32x80, .f32⟩
  | .hbm, ⟨9, _⟩ => ⟨S16x80, .f32⟩
  | .hbm, ⟨10, _⟩ => ⟨S1x80, .f32⟩
  | .hbm, ⟨11, _⟩ => ⟨S1x16, .f32⟩
  | .hbm, ⟨12, _⟩ => ⟨S1600000x16, .f32⟩
  | .local _ .vmem, ⟨0, _⟩ => ⟨S16000x32, .f32⟩
  | .local _ .vmem, ⟨1, _⟩ => ⟨S16000x32, .f32⟩
  | .local _ .vmem, ⟨2, _⟩ => ⟨S16000x32, .f32⟩
  | .local _ .vmem, ⟨3, _⟩ => ⟨S16000x32, .f32⟩
  | .local _ .vmem, ⟨4, _⟩ => ⟨S16000x16, .f32⟩
  | .local _ .vmem, ⟨5, _⟩ => ⟨S16000x16, .f32⟩
  | .local _ .vmem, ⟨6, _⟩ => ⟨S32x80, .f32⟩
  | .local _ .vmem, ⟨7, _⟩ => ⟨S32x80, .f32⟩
  | .local _ .vmem, ⟨8, _⟩ => ⟨S16x80, .f32⟩
  | .local _ .vmem, ⟨9, _⟩ => ⟨S1x80, .f32⟩
  | .local _ .vmem, ⟨10, _⟩ => ⟨S80x16, .f32⟩
  | .local _ .vmem, ⟨11, _⟩ => ⟨S1x16, .f32⟩
  | .local _ .vmem, ⟨12, _⟩ => ⟨S16000x16, .f32⟩
  | .local _ .vmem, ⟨13, _⟩ => ⟨S16000x16, .f32⟩
  | _, _ => ⟨S1600000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S80x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16000x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S80x80_S32x80_0_0 : S80x80.Slices ![0, 0] S32x80
  slices_S80x80_S32x80_32_0 : S80x80.Slices ![32, 0] S32x80
  slices_S80x80_S16x80_64_0 : S80x80.Slices ![64, 0] S16x80
  shapeCasts_S80_S1x80 : S80.ShapeCasts S1x80
  shapeCasts_S16_S1x16 : S16.ShapeCasts S1x16
  inb_S16000x32_S16000x32_0_0 : ∀ a, (![0, 0] : Fin 2 → Nat) a + S16000x32.size a ≤ S16000x32.size a
  h_S16000x32 : 0 < S16000x32.numel
  inb_S16000x16_S16000x16_0_0 : ∀ a, (![0, 0] : Fin 2 → Nat) a + S16000x16.size a ≤ S16000x16.size a
  h_S16000x16 : 0 < S16000x16.numel
  inb_S32x80_S32x80_0_0 : ∀ a, (![0, 0] : Fin 2 → Nat) a + S32x80.size a ≤ S32x80.size a
  h_S32x80 : 0 < S32x80.numel
  shapeCasts_S32x80_S32x80 : S32x80.ShapeCasts S32x80
  inb_S16x80_S16x80_0_0 : ∀ a, (![0, 0] : Fin 2 → Nat) a + S16x80.size a ≤ S16x80.size a
  h_S16x80 : 0 < S16x80.numel
  shapeCasts_S16x80_S16x80 : S16x80.ShapeCasts S16x80
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S16000x80 : S1x80.Broadcasts S16000x80
  inb_S80x16_S80x16_0_0 : ∀ a, (![0, 0] : Fin 2 → Nat) a + S80x16.size a ≤ S80x16.size a
  h_S80x16 : 0 < S80x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S16000x16 : S1x16.Broadcasts S16000x16
  dot_S16000x32_S32x80_S16000x80_1_0_0_1_n_n_wf : DotDims.WF S16000x32 S32x80 S16000x80 [1] [0] [0] [1] [] []
  dot_S16000x16_S16x80_S16000x80_1_0_0_1_n_n_wf : DotDims.WF S16000x16 S16x80 S16000x80 [1] [0] [0] [1] [] []
  dot_S16000x80_S80x16_S16000x16_1_0_0_1_n_n_wf : DotDims.WF S16000x80 S80x16 S16000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x32.size a ≤ S1600000x32.size a
  hwx0_0 : ∀ i : grid0.Coords, EltTy.bits .f32 = 32 ∨ (Rect.block (s := S1600000x32) S16000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x32.size a ≤ S1600000x32.size a
  hwx0_1 : ∀ i : grid0.Coords, EltTy.bits .f32 = 32 ∨ (Rect.block (s := S1600000x32) S16000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x16.size a ≤ S1600000x16.size a
  hwx0_2 : ∀ i : grid0.Coords, EltTy.bits .f32 = 32 ∨ (Rect.block (s := S1600000x16) S16000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x80.size a ≤ S32x80.size a
  hwx0_3 : ∀ i : grid0.Coords, EltTy.bits .f32 = 32 ∨ (Rect.block (s := S32x80) S32x80.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x80.size a ≤ S32x80.size a
  hwx0_4 : ∀ i : grid0.Coords, EltTy.bits .f32 = 32 ∨ (Rect.block (s := S32x80) S32x80.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x80.size a ≤ S16x80.size a
  hwx0_5 : ∀ i : grid0.Coords, EltTy.bits .f32 = 32 ∨ (Rect.block (s := S16x80) S16x80.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x80.size a ≤ S1x80.size a
  hwx0_6 : ∀ i : grid0.Coords, EltTy.bits .f32 = 32 ∨ (Rect.block (s := S1x80) S1x80.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S80x16.size a ≤ S80x16.size a
  hwx0_7 : ∀ i : grid0.Coords, EltTy.bits .f32 = 32 ∨ (Rect.block (s := S80x16) S80x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16000x16.size a ≤ S1600000x16.size a
  hwx0_9 : ∀ i : grid0.Coords, EltTy.bits .f32 = 32 ∨ (Rect.block (s := S1600000x16) S16000x16.size (cc0_transform_9 i) (hinb0_9 i)).WholeWords (EltTy.packing .f32)

variable [Facts₀]

def dot_S16000x32_S32x80_S16000x80_1_0_0_1_n_n : DotDims S16000x32 S32x80 S16000x80 where
  lhsContracting := [1]
  rhsContracting := [0]
  lhsNonContracting := [0]
  rhsNonContracting := [1]
  lhsBatch := []
  rhsBatch := []
  wf := dot_S16000x32_S32x80_S16000x80_1_0_0_1_n_n_wf
def dot_S16000x16_S16x80_S16000x80_1_0_0_1_n_n : DotDims S16000x16 S16x80 S16000x80 where
  lhsContracting := [1]
  rhsContracting := [0]
  lhsNonContracting := [0]
  rhsNonContracting := [1]
  lhsBatch := []
  rhsBatch := []
  wf := dot_S16000x16_S16x80_S16000x80_1_0_0_1_n_n_wf
def dot_S16000x80_S80x16_S16000x16_1_0_0_1_n_n : DotDims S16000x80 S80x16 S16000x16 where
  lhsContracting := [1]
  rhsContracting := [0]
  lhsNonContracting := [0]
  rhsNonContracting := [1]
  lhsBatch := []
  rhsBatch := []
  wf := dot_S16000x80_S80x16_S16000x16_1_0_0_1_n_n_wf

abbrev win0_0 : Pipeline.Window sig grid0 :=
  Pipeline.Window.ofSpec (Memref.whole main_arg0) S16000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x80.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x80.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x80.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x80.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S80x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S16000x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1600000x32 : Shape := ⟨2, ![1600000, 32]⟩
abbrev S1600000x16 : Shape := ⟨2, ![1600000, 16]⟩
abbrev S80x80 : Shape := ⟨2, ![80, 80]⟩
abbrev S80 : Shape := ⟨1, ![80]⟩
abbrev S80x16 : Shape := ⟨2, ![80, 16]⟩
abbrev S16 : Shape := ⟨1, ![16]⟩
abbrev S1600000x80 : Shape := ⟨2, ![1600000, 80]⟩
abbrev S1x80 : Shape := ⟨2, ![1, 80]⟩
abbrev S_ : Shape := ⟨0, ![]⟩
abbrev S1x16 : Shape := ⟨2, ![1, 16]⟩

abbrev nBuf : Space → Nat
  | .hbm => 22
  | .vmem => 0
  | .smem => 0
  | _ => 0

abbrev bufTy : (tb : Table) → Fin (tcTables nBuf tb) → BufTy
  | .hbm, ⟨0, _⟩ => ⟨S1600000x32, .f32⟩
  | .hbm, ⟨1, _⟩ => ⟨S1600000x32, .f32⟩
  | .hbm, ⟨2, _⟩ => ⟨S1600000x16, .f32⟩
  | .hbm, ⟨3, _⟩ => ⟨S80x80, .f32⟩
  | .hbm, ⟨4, _⟩ => ⟨S80, .f32⟩
  | .hbm, ⟨5, _⟩ => ⟨S80x16, .f32⟩
  | .hbm, ⟨6, _⟩ => ⟨S16, .f32⟩
  | .hbm, ⟨7, _⟩ => ⟨S1600000x80, .f32⟩
  | .hbm, ⟨8, _⟩ => ⟨S1600000x80, .f32⟩
  | .hbm, ⟨9, _⟩ => ⟨S1x80, .f32⟩
  | .hbm, ⟨10, _⟩ => ⟨S1600000x80, .f32⟩
  | .hbm, ⟨11, _⟩ => ⟨S1600000x80, .f32⟩
  | .hbm, ⟨12, _⟩ => ⟨S_, .f32⟩
  | .hbm, ⟨13, _⟩ => ⟨S1600000x80, .f32⟩
  | .hbm, ⟨14, _⟩ => ⟨S1600000x80, .f32⟩
  | .hbm, ⟨15, _⟩ => ⟨S1600000x16, .f32⟩
  | .hbm, ⟨16, _⟩ => ⟨S1x16, .f32⟩
  | .hbm, ⟨17, _⟩ => ⟨S1600000x16, .f32⟩
  | .hbm, ⟨18, _⟩ => ⟨S1600000x16, .f32⟩
  | .hbm, ⟨19, _⟩ => ⟨S_, .f32⟩
  | .hbm, ⟨20, _⟩ => ⟨S1600000x16, .f32⟩
  | .hbm, ⟨21, _⟩ => ⟨S1600000x16, .f32⟩
  | _, _ => ⟨S1600000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩

abbrev nD : Nat := 1
abbrev τ : Topo := Topo.v7x

variable {F : FTy → Type} [FloatOps F]

class Facts₀ : Prop where
  concatenates_S1600000x32_S1600000x32_S1600000x16_S1600000x80_d1 : Shape.Concatenates [S1600000x32, S1600000x32, S1600000x16] S1600000x80 1
  bcast_S80_S1x80_1 : S80.BroadcastsInDim S1x80 (![1] : Fin 1 → Fin S1x80.rank)
  bcast_S1x80_S1600000x80_0_1 : S1x80.BroadcastsInDim S1600000x80 (![0, 1] : Fin 2 → Fin S1600000x80.rank)
  bcast_S_S1600000x80 : S_.BroadcastsInDim S1600000x80 (![] : Fin 0 → Fin S1600000x80.rank)
  bcast_S16_S1x16_1 : S16.BroadcastsInDim S1x16 (![1] : Fin 1 → Fin S1x16.rank)
  bcast_S1x16_S1600000x16_0_1 : S1x16.BroadcastsInDim S1600000x16 (![0, 1] : Fin 2 → Fin S1600000x16.rank)
  bcast_S_S1600000x16 : S_.BroadcastsInDim S1600000x16 (![] : Fin 0 → Fin S1600000x16.rank)
  dot_S1600000x80_S80x80_S1600000x80_1_0_0_1_n_n_wf : DotDims.WF S1600000x80 S80x80 S1600000x80 [1] [0] [0] [1] [] []
  dot_S1600000x80_S80x16_S1600000x16_1_0_0_1_n_n_wf : DotDims.WF S1600000x80 S80x16 S1600000x16 [1] [0] [0] [1] [] []

variable [Facts₀]

def dot_S1600000x80_S80x80_S1600000x80_1_0_0_1_n_n : DotDims S1600000x80 S80x80 S1600000x80 where
  lhsContracting := [1]
  rhsContracting := [0]
  lhsNonContracting := [0]
  rhsNonContracting := [1]
  lhsBatch := []
  rhsBatch := []
  wf := dot_S1600000x80_S80x80_S1600000x80_1_0_0_1_n_n_wf
def dot_S1600000x80_S80x16_S1600000x16_1_0_0_1_n_n : DotDims S1600000x80 S80x16 S1600000x16 where
  lhsContracting := [1]
  rhsContracting := [0]
  lhsNonContracting := [0]
  rhsNonContracting := [1]
  lhsBatch := []
  rhsBatch := []
  wf := dot_S1600000x80_S80x16_S1600000x16_1_0_0_1_n_n_wf

class Facts : Prop extends Facts₀ where

variable [Facts]
-- ==== Proof.EdgeMlpSpec.lean ====
/-
  The edge model's two dense layers as ONE function of the seven argument arrays, index by index, on the
  extended reals, and the one law the certificate needs.

  For edge `r` the first layer's input is the 80-vector made of the edge's source row (32 entries), its
  target row (32) and its attribute row (16). Its inner product with column `k` of `w1` is therefore the sum
  of three inner products, against rows 0–31, 32–63 and 64–79 of that column. `G` is written in that form;
  `sum_bands` says a sum of 80 terms is the sum of its three bands. Splitting a finite sum uses only that
  addition is commutative and associative, which holds on the extended reals at the infinities too, so no
  finiteness of the inputs is needed anywhere.
-/
import Idealize.ShloMosaic.Lib.ValueIdx
import Mathlib.Algebra.BigOperators.Fin

noncomputable section

open scoped BigOperators
open Idealize.ShloMosaic Idealize.ShloMosaic.ValueIdx

namespace Cert.EdgeMlp

/-- Row `off + a` of an 80-row matrix, for `a` in a band of `n` rows that starts at row `off`. -/
def band (off : Nat) {n : Nat} (h : off + n ≤ 80) (a : Fin n) : Fin 80 :=
  ⟨off + a.val, by have := a.isLt; omega⟩

@[simp] theorem band_val (off : Nat) {n : Nat} (h : off + n ≤ 80) (a : Fin n) : (band off h a).val = off + a.val := rfl

theorem h0 : 0 + 32 ≤ 80 := by norm_num
theorem h32 : 32 + 32 ≤ 80 := by norm_num
theorem h64 : 64 + 16 ≤ 80 := by norm_num

/-- A sum of 80 terms is the sum over rows 0–31, plus the sum over rows 32–63, plus the sum over rows 64–79:
    only commutativity and associativity of the addition are used. -/
theorem sum_bands {M : Type*} [AddCommMonoid M] (f : Fin 80 → M) :
    ∑ k : Fin 80, f k
      = (∑ a : Fin 32, f (band 0 h0 a)) + (∑ a : Fin 32, f (band 32 h32 a)) + ∑ a : Fin 16, f (band 64 h64 a) := by
  have e1 : ∑ k : Fin 80, f k = (∑ i : Fin 64, f (Fin.castAdd 16 i)) + ∑ i : Fin 16, f (Fin.natAdd 64 i) :=
    Fin.sum_univ_add (a := 64) (b := 16) f
  have e2 : (∑ i : Fin 64, f (Fin.castAdd 16 i))
      = (∑ i : Fin 32, f (Fin.castAdd 16 (Fin.castAdd 32 i))) + ∑ i : Fin 32, f (Fin.castAdd 16 (Fin.natAdd 32 i)) :=
    Fin.sum_univ_add (a := 32) (b := 32) fun i => f (Fin.castAdd 16 i)
  rw [e1, e2]
  refine congrArg₂ (· + ·) (congrArg₂ (· + ·) ?_ ?_) ?_
  · exact Finset.sum_congr rfl fun a _ => congrArg f (Fin.ext (Nat.zero_add _).symm)
  · exact Finset.sum_congr rfl fun a _ => congrArg f (Fin.ext rfl)
  · exact Finset.sum_congr rfl fun a _ => congrArg f (Fin.ext rfl)

/-- An `r × c` matrix of extended reals, indexed by (row, column). -/
abbrev Mat (r c : Nat) : Type := (⟨2, ![r, c]⟩ : Shape).Idx → EReal
/-- A vector of `n` extended reals. -/
abbrev Row (n : Nat) : Type := (⟨1, ![n]⟩ : Shape).Idx → EReal

/-- The value both rectifiers compare against: the f32 word `0x00000000` read on the extended reals. It is
    the same word in both programs, so it is never evaluated. -/
abbrev zero32 : EReal := Ideal.ofBits .f32 0x00000000#32

/-- The first layer before its rectifier, at edge `r` and hidden unit `k`: the inner products of the edge's
    source, target and attribute rows with the three bands of column `k` of `w1`, plus the bias. -/
def pre1 (s t : Mat 1600000 32) (e : Mat 1600000 16) (w1 : Mat 80 80) (b1 : Row 80)
    (r : Fin 1600000) (k : Fin 80) : EReal :=
  (∑ a : Fin 32, s (ix2 r a) * w1 (ix2 (band 0 h0 a) k))
    + (∑ a : Fin 32, t (ix2 r a) * w1 (ix2 (band 32 h32 a) k))
    + (∑ a : Fin 16, e (ix2 r a) * w1 (ix2 (band 64 h64 a) k))
    + b1 (ix1 k)

/-- The hidden activation: the first layer rectified. -/
def hidden (s t : Mat 1600000 32) (e : Mat 1600000 16) (w1 : Mat 80 80) (b1 : Row 80)
    (r : Fin 1600000) (k : Fin 80) : EReal :=
  max (pre1 s t e w1 b1 r k) zero32

/-- The model's output at edge `r` and output unit `j`: the hidden row's inner product with column `j` of
    `w2`, plus the bias, rectified. -/
def out (s t : Mat 1600000 32) (e : Mat 1600000 16) (w1 : Mat 80 80) (b1 : Row 80) (w2 : Mat 80 16) (b2 : Row 16)
    (r : Fin 1600000) (j : Fin 16) : EReal :=
  max ((∑ k : Fin 80, hidden s t e w1 b1 r k * w2 (ix2 k j)) + b2 (ix1 j)) zero32

/-- The whole result array as one function of the seven arguments. -/
def G (s t : Mat 1600000 32) (e : Mat 1600000 16) (w1 : Mat 80 80) (b1 : Row 80) (w2 : Mat 80 16) (b2 : Row 16) :
    Mat 1600000 16 :=
  fun i => out s t e w1 b1 w2 b2 (i 0) (i 1)

theorem G_ix2 (s t : Mat 1600000 32) (e : Mat 1600000 16) (w1 : Mat 80 80) (b1 : Row 80) (w2 : Mat 80 16) (b2 : Row 16)
    (r : Fin 1600000) (j : Fin 16) : G s t e w1 b1 w2 b2 (ix2 r j) = out s t e w1 b1 w2 b2 r j := rfl

end Cert.EdgeMlp

end
-- ==== Proof.EdgeMlpRef.lean ====
/-
  The reference computes `G`.

  The reference joins the source, target and attribute rows of an edge into one 80-vector and takes ONE inner
  product with a column of `w1`. Read at column `off + a` of a band, the joined array is the band's own
  array at column `a`; so after `sum_bands` the one inner product is the three that `G` is written with. The
  bias is broadcast along the edges, the rectifier is the maximum with the zero word, and the second layer is an
  inner product over the 80 hidden units: each is read at an index and is the corresponding factor of `G`.
-/
import proofs.«153449_j2199023255661_1_alg».proof.Proof.Gen.ReferenceIdeal.Read
import proofs.«153449_j2199023255661_1_alg».proof.Proof.EdgeMlpSpec

noncomputable section

open scoped BigOperators

namespace Cert.EdgeMlp.Ref

open Cert.ReferenceIdeal Cert.ReferenceIdeal.Gen Cert.ReferenceIdeal.Read
open Idealize.ShloMosaic Idealize.ShloMosaic.ValueIdx Cert.EdgeMlp

variable (x0 x1 : (⟨S1600000x32, .f32⟩ : BufTy).Contents (Elt Ideal)) (x2 : (⟨S1600000x16, .f32⟩ : BufTy).Contents (Elt Ideal))
  (x3 : (⟨S80x80, .f32⟩ : BufTy).Contents (Elt Ideal)) (x4 : (⟨S80, .f32⟩ : BufTy).Contents (Elt Ideal))
  (x5 : (⟨S80x16, .f32⟩ : BufTy).Contents (Elt Ideal)) (x6 : (⟨S16, .f32⟩ : BufTy).Contents (Elt Ideal))

/-- Columns 0–31 of the joined array are the source array's columns. -/
theorem joined_source (r : Fin 1600000) (a : Fin 32) :
    val_main_v0 (F := Ideal) x0 x1 x2 (ix2 r (band 0 h0 a)) = x0 (ix2 r a) := by
  unfold val_main_v0
  refine concatenate_apply_piece (t := S1600000x80) (1 : Fin 2) [⟨S1600000x32, x0⟩, ⟨S1600000x32, x1⟩, ⟨S1600000x16, x2⟩] concatenates_S1600000x32_S1600000x32_S1600000x16_S1600000x80_d1 (ix2 r (band 0 h0 a)) 0 (by simp) S1600000x32 x0 rfl rfl 0 rfl
    (ix2 r a) (fun b => ?_) rfl
  match b with
  | ⟨0, _⟩ => exact fun _ => rfl
  | ⟨1, _⟩ => exact fun h => absurd rfl h

/-- Columns 32–63 of the joined array are the target array's columns. -/
theorem joined_target (r : Fin 1600000) (a : Fin 32) :
    val_main_v0 (F := Ideal) x0 x1 x2 (ix2 r (band 32 h32 a)) = x1 (ix2 r a) := by
  unfold val_main_v0
  refine concatenate_apply_piece (t := S1600000x80) (1 : Fin 2) [⟨S1600000x32, x0⟩, ⟨S1600000x32, x1⟩, ⟨S1600000x16, x2⟩] concatenates_S1600000x32_S1600000x32_S1600000x16_S1600000x80_d1 (ix2 r (band 32 h32 a)) 1 (by simp) S1600000x32 x1 rfl rfl 32 rfl
    (ix2 r a) (fun b => ?_) rfl
  match b with
  | ⟨0, _⟩ => exact fun _ => rfl
  | ⟨1, _⟩ => exact fun h => absurd rfl h

/-- Columns 64–79 of the joined array are the attribute array's columns. -/
theorem joined_attr (r : Fin 1600000) (a : Fin 16) :
    val_main_v0 (F := Ideal) x0 x1 x2 (ix2 r (band 64 h64 a)) = x2 (ix2 r a) := by
  unfold val_main_v0
  refine concatenate_apply_piece (t := S1600000x80) (1 : Fin 2) [⟨S1600000x32, x0⟩, ⟨S1600000x32, x1⟩, ⟨S1600000x16, x2⟩] concatenates_S1600000x32_S1600000x32_S1600000x16_S1600000x80_d1 (ix2 r (band 64 h64 a)) 2 (by simp) S1600000x16 x2 rfl rfl 64 rfl
    (ix2 r a) (fun b => ?_) rfl
  match b with
  | ⟨0, _⟩ => exact fun _ => rfl
  | ⟨1, _⟩ => exact fun h => absurd rfl h

/-- The first contraction's left index at (edge `r`, unit `k`), term `q`: entry (`r`, `q`) of the joined array. -/
theorem lidx1 (r : Fin 1600000) (k q : Fin 80) : lidx_main_v1 (ix2 r k) q = ix2 r q :=
  funext fun a => by match a with | ⟨0, _⟩ => rfl | ⟨1, _⟩ => rfl
/-- … and its right index: entry (`q`, `k`) of `w1`. -/
theorem ridx1 (r : Fin 1600000) (k q : Fin 80) : ridx_main_v1 (ix2 r k) q = ix2 q k :=
  funext fun a => by match a with | ⟨0, _⟩ => rfl | ⟨1, _⟩ => rfl
/-- The first bias, broadcast to every edge, read at (`r`, `k`) is its entry `k`. -/
theorem bidx1 (r : Fin 1600000) (k : Fin 80) : idx_main_v2 (idx_main_v3 (ix2 r k)) = ix1 k :=
  funext fun a => by match a with | ⟨0, _⟩ => rfl

/-- The reference's hidden activation is `hidden`: its one inner product over the joined 80-vector splits into
    the three bands (`sum_bands`), each read off its own array. -/
theorem hidden_eq (r : Fin 1600000) (k : Fin 80) :
    val_main_v5 (F := Ideal) x0 x1 x2 x3 x4 (ix2 r k) = hidden x0 x1 x2 x3 x4 r k := by
  rw [val_main_v5_apply, val_main_v4_apply, val_main_v1_apply, val_main_v3_apply, val_main_v2_apply,
    val_main_call0_v0_apply, val_main_call0_cst_apply, bidx1]
  simp only [lidx1, ridx1]
  rw [sum_bands fun q : Fin 80 => val_main_v0 (F := Ideal) x0 x1 x2 (ix2 r q) * x3 (ix2 q k)]
  simp only [joined_source, joined_target, joined_attr]
  rfl

/-- The second contraction's indices at (edge `r`, output `j`), term `k`: hidden unit `k` of the edge, and entry
    (`k`, `j`) of `w2`. -/
theorem lidx2 (r : Fin 1600000) (j : Fin 16) (k : Fin 80) : lidx_main_v6 (ix2 r j) k = ix2 r k :=
  funext fun a => by match a with | ⟨0, _⟩ => rfl | ⟨1, _⟩ => rfl
theorem ridx2 (r : Fin 1600000) (j : Fin 16) (k : Fin 80) : ridx_main_v6 (ix2 r j) k = ix2 k j :=
  funext fun a => by match a with | ⟨0, _⟩ => rfl | ⟨1, _⟩ => rfl
/-- The second bias, broadcast to every edge, read at (`r`, `j`) is its entry `j`. -/
theorem bidx2 (r : Fin 1600000) (j : Fin 16) : idx_main_v7 (idx_main_v8 (ix2 r j)) = ix1 j :=
  funext fun a => by match a with | ⟨0, _⟩ => rfl

/-- The reference's result array is `G` of its arguments. -/
theorem result_eq : val_main_v10 (F := Ideal) x0 x1 x2 x3 x4 x5 x6 = G x0 x1 x2 x3 x4 x5 x6 := by
  funext i
  obtain ⟨r, j, rfl⟩ : ∃ (r : Fin 1600000) (j : Fin 16), i = ix2 r j := ⟨i 0, i 1, eq_ix2 i⟩
  rw [val_main_v10_apply, val_main_v9_apply, val_main_v6_apply, val_main_v8_apply, val_main_v7_apply,
    val_main_call1_v0_apply, val_main_call1_cst_apply, bidx2]
  simp only [lidx2, ridx2, hidden_eq]
  rfl

end Cert.EdgeMlp.Ref

end
-- ==== Proof.EdgeMlpBody.lean ====
/-
  What one grid point stores, read at an index.

  The kernel's body multiplies the point's 16000 source rows by rows 0–31 of `w1`, its target rows by rows
  32–63 and its attribute rows by rows 64–79 — three matrix products into zero accumulators, each an inner
  product per entry —, adds the three and the bias row, rectifies, multiplies by `w2`, adds the second bias row
  and rectifies again. Read at (row `p`, column `j`) of the block this is the formula of `Cert.EdgeMlp.out` with
  the block's rows in place of the edges and the three weight blocks in place of the bands of `w1`.
-/
import proofs.«153449_j2199023255661_1_alg».proof.Proof.Gen.KernelIdeal.Skeleton
import proofs.«153449_j2199023255661_1_alg».proof.Proof.EdgeMlpSpec
import Idealize.ShloMosaic.Lib.Pipeline.Value
import Idealize.ShloMosaic.Lib.ValueIdx
import Idealize.ShloMosaic.PureOps.Ideal.Laws

noncomputable section

open scoped BigOperators

namespace Cert.EdgeMlp.Body

open Cert.KernelIdeal Cert.KernelIdeal.Gen
open Idealize.ShloMosaic Idealize.ShloMosaic.ValueIdx Cert.EdgeMlp

/-! ## A 16000×32 block times a 32×80 block -/

theorem lhs32_0 (i : S16000x80.Idx) (q : dot_S16000x32_S32x80_S16000x80_1_0_0_1_n_n.contr.Idx) :
    (dot_S16000x32_S32x80_S16000x80_1_0_0_1_n_n.lhsIdx i q 0).val = (i 0).val := by
  unfold DotDims.lhsIdx
  rw [dif_neg (show ¬(0 : Fin S16000x32.rank) ∈ dot_S16000x32_S32x80_S16000x80_1_0_0_1_n_n.lhsBatch by decide), dif_pos (show (0 : Fin S16000x32.rank) ∈ dot_S16000x32_S32x80_S16000x80_1_0_0_1_n_n.lhsNonContracting by decide)]
  rfl
theorem lhs32_1 (i : S16000x80.Idx) (q : dot_S16000x32_S32x80_S16000x80_1_0_0_1_n_n.contr.Idx) :
    (dot_S16000x32_S32x80_S16000x80_1_0_0_1_n_n.lhsIdx i q 1).val = (q ⟨0, by decide⟩).val :=
  dot_S16000x32_S32x80_S16000x80_1_0_0_1_n_n.lhsIdx_val_of_single rfl i q
theorem rhs32_0 (i : S16000x80.Idx) (q : dot_S16000x32_S32x80_S16000x80_1_0_0_1_n_n.contr.Idx) :
    (dot_S16000x32_S32x80_S16000x80_1_0_0_1_n_n.rhsIdx i q 0).val = (q ⟨0, by decide⟩).val :=
  dot_S16000x32_S32x80_S16000x80_1_0_0_1_n_n.rhsIdx_val_of_single rfl i q
theorem rhs32_1 (i : S16000x80.Idx) (q : dot_S16000x32_S32x80_S16000x80_1_0_0_1_n_n.contr.Idx) :
    (dot_S16000x32_S32x80_S16000x80_1_0_0_1_n_n.rhsIdx i q 1).val = (i 1).val := by
  unfold DotDims.rhsIdx
  rw [dif_neg (show ¬(1 : Fin S32x80.rank) ∈ dot_S16000x32_S32x80_S16000x80_1_0_0_1_n_n.rhsBatch by decide), dif_pos (show (1 : Fin S32x80.rank) ∈ dot_S16000x32_S32x80_S16000x80_1_0_0_1_n_n.rhsNonContracting by decide)]
  rfl

/-- Entry (`p`, `k`) of the product into a zero accumulator is row `p` of the left block against column `k` of the
    right one. -/
theorem mm32 (l : FVec Ideal S16000x32 .f32) (w : FVec Ideal S32x80 .f32) (p : Fin 16000) (k : Fin 80) :
    matmul dot_S16000x32_S32x80_S16000x80_1_0_0_1_n_n none l w (constant S16000x80 .f32 0x00000000#32) (ix2 p k)
      = ∑ a : Fin 32, l (ix2 p a) * w (ix2 a k) := by
  refine (Ideal.matmul_constant_zero_apply dot_S16000x32_S32x80_S16000x80_1_0_0_1_n_n none l w (ix2 p k)).trans ?_
  rw [← Equiv.sum_comp (contrEquiv1 dot_S16000x32_S32x80_S16000x80_1_0_0_1_n_n 32 rfl rfl).symm]
  refine Finset.sum_congr rfl fun a _ => ?_
  have hk := contrEquiv1_symm_val dot_S16000x32_S32x80_S16000x80_1_0_0_1_n_n 32 rfl rfl a
  have el : dot_S16000x32_S32x80_S16000x80_1_0_0_1_n_n.lhsIdx (ix2 p k) ((contrEquiv1 dot_S16000x32_S32x80_S16000x80_1_0_0_1_n_n 32 rfl rfl).symm a) = ix2 p a := funext fun b => Fin.ext (by
    match b with
    | ⟨0, _⟩ => exact lhs32_0 _ _
    | ⟨1, _⟩ => exact (lhs32_1 _ _).trans hk)
  have er : dot_S16000x32_S32x80_S16000x80_1_0_0_1_n_n.rhsIdx (ix2 p k) ((contrEquiv1 dot_S16000x32_S32x80_S16000x80_1_0_0_1_n_n 32 rfl rfl).symm a) = ix2 a k := funext fun b => Fin.ext (by
    match b with
    | ⟨0, _⟩ => exact (rhs32_0 _ _).trans hk
    | ⟨1, _⟩ => exact rhs32_1 _ _)
  rw [el, er]

/-! ## A 16000×16 block times a 16×80 block -/

theorem lhs16_0 (i : S16000x80.Idx) (q : dot_S16000x16_S16x80_S16000x80_1_0_0_1_n_n.contr.Idx) :
    (dot_S16000x16_S16x80_S16000x80_1_0_0_1_n_n.lhsIdx i q 0).val = (i 0).val := by
  unfold DotDims.lhsIdx
  rw [dif_neg (show ¬(0 : Fin S16000x16.rank) ∈ dot_S16000x16_S16x80_S16000x80_1_0_0_1_n_n.lhsBatch by decide), dif_pos (show (0 : Fin S16000x16.rank) ∈ dot_S16000x16_S16x80_S16000x80_1_0_0_1_n_n.lhsNonContracting by decide)]
  rfl
theorem lhs16_1 (i : S16000x80.Idx) (q : dot_S16000x16_S16x80_S16000x80_1_0_0_1_n_n.contr.Idx) :
    (dot_S16000x16_S16x80_S16000x80_1_0_0_1_n_n.lhsIdx i q 1).val = (q ⟨0, by decide⟩).val :=
  dot_S16000x16_S16x80_S16000x80_1_0_0_1_n_n.lhsIdx_val_of_single rfl i q
theorem rhs16_0 (i : S16000x80.Idx) (q : dot_S16000x16_S16x80_S16000x80_1_0_0_1_n_n.contr.Idx) :
    (dot_S16000x16_S16x80_S16000x80_1_0_0_1_n_n.rhsIdx i q 0).val = (q ⟨0, by decide⟩).val :=
  dot_S16000x16_S16x80_S16000x80_1_0_0_1_n_n.rhsIdx_val_of_single rfl i q
theorem rhs16_1 (i : S16000x80.Idx) (q : dot_S16000x16_S16x80_S16000x80_1_0_0_1_n_n.contr.Idx) :
    (dot_S16000x16_S16x80_S16000x80_1_0_0_1_n_n.rhsIdx i q 1).val = (i 1).val := by
  unfold DotDims.rhsIdx
  rw [dif_neg (show ¬(1 : Fin S16x80.rank) ∈ dot_S16000x16_S16x80_S16000x80_1_0_0_1_n_n.rhsBatch by decide), dif_pos (show (1 : Fin S16x80.rank) ∈ dot_S16000x16_S16x80_S16000x80_1_0_0_1_n_n.rhsNonContracting by decide)]
  rfl

theorem mm16 (l : FVec Ideal S16000x16 .f32) (w : FVec Ideal S16x80 .f32) (p : Fin 16000) (k : Fin 80) :
    matmul dot_S16000x16_S16x80_S16000x80_1_0_0_1_n_n none l w (constant S16000x80 .f32 0x00000000#32) (ix2 p k)
      = ∑ a : Fin 16, l (ix2 p a) * w (ix2 a k) := by
  refine (Ideal.matmul_constant_zero_apply dot_S16000x16_S16x80_S16000x80_1_0_0_1_n_n none l w (ix2 p k)).trans ?_
  rw [← Equiv.sum_comp (contrEquiv1 dot_S16000x16_S16x80_S16000x80_1_0_0_1_n_n 16 rfl rfl).symm]
  refine Finset.sum_congr rfl fun a _ => ?_
  have hk := contrEquiv1_symm_val dot_S16000x16_S16x80_S16000x80_1_0_0_1_n_n 16 rfl rfl a
  have el : dot_S16000x16_S16x80_S16000x80_1_0_0_1_n_n.lhsIdx (ix2 p k) ((contrEquiv1 dot_S16000x16_S16x80_S16000x80_1_0_0_1_n_n 16 rfl rfl).symm a) = ix2 p a := funext fun b => Fin.ext (by
    match b with
    | ⟨0, _⟩ => exact lhs16_0 _ _
    | ⟨1, _⟩ => exact (lhs16_1 _ _).trans hk)
  have er : dot_S16000x16_S16x80_S16000x80_1_0_0_1_n_n.rhsIdx (ix2 p k) ((contrEquiv1 dot_S16000x16_S16x80_S16000x80_1_0_0_1_n_n 16 rfl rfl).symm a) = ix2 a k := funext fun b => Fin.ext (by
    match b with
    | ⟨0, _⟩ => exact (rhs16_0 _ _).trans hk
    | ⟨1, _⟩ => exact rhs16_1 _ _)
  rw [el, er]

/-! ## The 16000×80 hidden block times the 80×16 block -/

theorem lhs80_0 (i : S16000x16.Idx) (q : dot_S16000x80_S80x16_S16000x16_1_0_0_1_n_n.contr.Idx) :
    (dot_S16000x80_S80x16_S16000x16_1_0_0_1_n_n.lhsIdx i q 0).val = (i 0).val := by
  unfold DotDims.lhsIdx
  rw [dif_neg (show ¬(0 : Fin S16000x80.rank) ∈ dot_S16000x80_S80x16_S16000x16_1_0_0_1_n_n.lhsBatch by decide), dif_pos (show (0 : Fin S16000x80.rank) ∈ dot_S16000x80_S80x16_S16000x16_1_0_0_1_n_n.lhsNonContracting by decide)]
  rfl
theorem lhs80_1 (i : S16000x16.Idx) (q : dot_S16000x80_S80x16_S16000x16_1_0_0_1_n_n.contr.Idx) :
    (dot_S16000x80_S80x16_S16000x16_1_0_0_1_n_n.lhsIdx i q 1).val = (q ⟨0, by decide⟩).val :=
  dot_S16000x80_S80x16_S16000x16_1_0_0_1_n_n.lhsIdx_val_of_single rfl i q
theorem rhs80_0 (i : S16000x16.Idx) (q : dot_S16000x80_S80x16_S16000x16_1_0_0_1_n_n.contr.Idx) :
    (dot_S16000x80_S80x16_S16000x16_1_0_0_1_n_n.rhsIdx i q 0).val = (q ⟨0, by decide⟩).val :=
  dot_S16000x80_S80x16_S16000x16_1_0_0_1_n_n.rhsIdx_val_of_single rfl i q
theorem rhs80_1 (i : S16000x16.Idx) (q : dot_S16000x80_S80x16_S16000x16_1_0_0_1_n_n.contr.Idx) :
    (dot_S16000x80_S80x16_S16000x16_1_0_0_1_n_n.rhsIdx i q 1).val = (i 1).val := by
  unfold DotDims.rhsIdx
  rw [dif_neg (show ¬(1 : Fin S80x16.rank) ∈ dot_S16000x80_S80x16_S16000x16_1_0_0_1_n_n.rhsBatch by decide), dif_pos (show (1 : Fin S80x16.rank) ∈ dot_S16000x80_S80x16_S16000x16_1_0_0_1_n_n.rhsNonContracting by decide)]
  rfl

theorem mm80 (l : FVec Ideal S16000x80 .f32) (w : FVec Ideal S80x16 .f32) (p : Fin 16000) (j : Fin 16) :
    matmul dot_S16000x80_S80x16_S16000x16_1_0_0_1_n_n none l w (constant S16000x16 .f32 0x00000000#32) (ix2 p j)
      = ∑ k : Fin 80, l (ix2 p k) * w (ix2 k j) := by
  refine (Ideal.matmul_constant_zero_apply dot_S16000x80_S80x16_S16000x16_1_0_0_1_n_n none l w (ix2 p j)).trans ?_
  rw [← Equiv.sum_comp (contrEquiv1 dot_S16000x80_S80x16_S16000x16_1_0_0_1_n_n 80 rfl rfl).symm]
  refine Finset.sum_congr rfl fun a _ => ?_
  have hk := contrEquiv1_symm_val dot_S16000x80_S80x16_S16000x16_1_0_0_1_n_n 80 rfl rfl a
  have el : dot_S16000x80_S80x16_S16000x16_1_0_0_1_n_n.lhsIdx (ix2 p j) ((contrEquiv1 dot_S16000x80_S80x16_S16000x16_1_0_0_1_n_n 80 rfl rfl).symm a) = ix2 p a := funext fun b => Fin.ext (by
    match b with
    | ⟨0, _⟩ => exact lhs80_0 _ _
    | ⟨1, _⟩ => exact (lhs80_1 _ _).trans hk)
  have er : dot_S16000x80_S80x16_S16000x16_1_0_0_1_n_n.rhsIdx (ix2 p j) ((contrEquiv1 dot_S16000x80_S80x16_S16000x16_1_0_0_1_n_n 80 rfl rfl).symm a) = ix2 a j := funext fun b => Fin.ext (by
    match b with
    | ⟨0, _⟩ => exact (rhs80_0 _ _).trans hk
    | ⟨1, _⟩ => exact rhs80_1 _ _)
  rw [el, er]

/-! ## A bias row spread over the block's rows -/

/-- The 1×80 bias row, broadcast to 16000 rows, read at (`p`, `k`) is its entry `k`. -/
theorem bias80 (b : FVec Ideal S1x80 .f32) (p : Fin 16000) (k : Fin 80) :
    broadcastTo S16000x80 b broadcasts_S1x80_S16000x80 (ix2 p k) = b (ix2 (0 : Fin 1) k) :=
  broadcastTo_apply b broadcasts_S1x80_S16000x80 (ix2 p k) (ix2 (0 : Fin 1) k) fun a => by
    match a with
    | ⟨0, _⟩ => show 0 = if (1 : Nat) = 1 then 0 else _; rw [if_pos rfl]
    | ⟨1, _⟩ => show k.val = if (80 : Nat) = 1 then 0 else k.val; rw [if_neg (by decide)]

/-- The 1×16 bias row, broadcast to 16000 rows, read at (`p`, `j`) is its entry `j`. -/
theorem bias16 (b : FVec Ideal S1x16 .f32) (p : Fin 16000) (j : Fin 16) :
    broadcastTo S16000x16 b broadcasts_S1x16_S16000x16 (ix2 p j) = b (ix2 (0 : Fin 1) j) :=
  broadcastTo_apply b broadcasts_S1x16_S16000x16 (ix2 p j) (ix2 (0 : Fin 1) j) fun a => by
    match a with
    | ⟨0, _⟩ => show 0 = if (1 : Nat) = 1 then 0 else _; rw [if_pos rfl]
    | ⟨1, _⟩ => show j.val = if (16 : Nat) = 1 then 0 else j.val; rw [if_neg (by decide)]

/-! ## The stored block at an index -/

/-- The hidden block of a grid point at (row `p`, unit `k`): the three inner products and the bias, rectified. -/
def hid (v0 v1 : FVec Ideal S16000x32 .f32) (v2 : FVec Ideal S16000x16 .f32) (v3 v6 : FVec Ideal S32x80 .f32)
    (v10 : FVec Ideal S16x80 .f32) (v14 : FVec Ideal S1x80 .f32) (p : Fin 16000) (k : Fin 80) : EReal :=
  max ((∑ a : Fin 32, v0 (ix2 p a) * v3 (ix2 a k)) + (∑ a : Fin 32, v1 (ix2 p a) * v6 (ix2 a k))
    + (∑ a : Fin 16, v2 (ix2 p a) * v10 (ix2 a k)) + v14 (ix2 (0 : Fin 1) k)) zero32

/-- What the body stores, at (row `p`, column `j`) of the block. -/
theorem pay_apply (v0 v1 : FVec Ideal S16000x32 .f32) (v2 : FVec Ideal S16000x16 .f32) (v3 v6 : FVec Ideal S32x80 .f32)
    (v10 : FVec Ideal S16x80 .f32) (v14 : FVec Ideal S1x80 .f32) (v20 : FVec Ideal S80x16 .f32) (v22 : FVec Ideal S1x16 .f32)
    (p : Fin 16000) (j : Fin 16) :
    k0_pay1 (F := Ideal) v0 v1 v2 v3 v6 v10 v14 v20 v22 (ix2 p j)
      = max ((∑ k : Fin 80, hid v0 v1 v2 v3 v6 v10 v14 p k * v20 (ix2 k j)) + v22 (ix2 (0 : Fin 1) j)) zero32 := by
  unfold k0_pay1
  simp only [shapeCast_self]
  rw [maximumf_apply, addf_apply, mm80, bias16]
  simp only [maximumf_apply, addf_apply, mm32, mm16, bias80]
  rfl

end Cert.EdgeMlp.Body

end
-- ==== Proof.EdgeMlpKernel.lean ====
/-
  The kernel computes `G`.

  The grid has 100 points; point `t` is handed rows 16000·t … 16000·t + 15999 of the three edge arrays, the three
  bands of `w1` (rows 0–31, 32–63 and 64–79, cut out on the host before the call), the two bias vectors as
  one-row matrices and `w2` whole, and writes rows 16000·t … of the result. By the body's formula at an index
  what it writes is exactly those rows of `G`; the 100 tiles fill the result array; so the array ends equal to `G`.
-/
import proofs.«153449_j2199023255661_1_alg».proof.Proof.Gen.KernelIdeal.Value
import proofs.«153449_j2199023255661_1_alg».proof.Proof.EdgeMlpBody
import Idealize.ShloMosaic.Lib.StableHlo.Run

noncomputable section

open scoped BigOperators

namespace Cert.EdgeMlp.Kernel

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)
open Cert.EdgeMlp Cert.EdgeMlp.Body

variable (m : (ℓ : Loc nD τ sig) → Buf (Elt Ideal) ℓ) (ρ : Dev nD → PrngReg)

/-! ## Tiles, bands and bias rows as functions of the arguments -/

/-- Row `p` of tile `q` is edge 16000·q + p. -/
def edgeRow (q : Fin 100) (p : Fin 16000) : Fin 1600000 :=
  ⟨16000 * q.val + p.val, by have := q.isLt; have := p.isLt; omega⟩

/-- Tile `q` of an edge array: its rows 16000·q … 16000·q + 15999. -/
def tile {n : Nat} (X : Mat 1600000 n) (q : Fin 100) : (⟨2, ![16000, n]⟩ : Shape).Idx → EReal :=
  fun y => X (ix2 (edgeRow q (y 0)) (y 1))

/-- The band of `n` rows of `w1` that starts at row `off`. -/
def w1band (w1 : Mat 80 80) (off : Nat) {n : Nat} (h : off + n ≤ 80) : (⟨2, ![n, 80]⟩ : Shape).Idx → EReal :=
  fun y => w1 (ix2 (band off h (y 0)) (y 1))

/-- A bias vector as a one-row matrix. -/
def biasRow {n : Nat} (b : Row n) : (⟨2, ![1, n]⟩ : Shape).Idx → EReal := fun y => b (ix1 (y 1))

/-- The grid point as a tile number. -/
def pt (t : Fin cfg0.N) : Fin 100 := ⟨t.val, lt_of_lt_of_eq t.isLt N_0⟩

/-- The printed index maps, decided over the 100 points: the edge windows and the result window are at block row
    `t`, every other window at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-! ## The arrays the host wrote before the call -/

/-- The first band of `w1` as the host cut it. -/
theorem V_band0 (c : Dev nD) : (V m c main_v0 : S32x80.Idx → EReal)
    = extractStridedSlice S32x80 ![0, 0] (m ((c : Thread nD τ).loc main_arg3)) slices_S80x80_S32x80_0_0 := by
  dsimp only [Gen.V, Gen.hostOps0]; after_results <;> rfl
theorem V_band32 (c : Dev nD) : (V m c main_v1 : S32x80.Idx → EReal)
    = extractStridedSlice S32x80 ![32, 0] (m ((c : Thread nD τ).loc main_arg3)) slices_S80x80_S32x80_32_0 := by
  dsimp only [Gen.V, Gen.hostOps0]; after_results <;> rfl
theorem V_band64 (c : Dev nD) : (V m c main_v2 : S16x80.Idx → EReal)
    = extractStridedSlice S16x80 ![64, 0] (m ((c : Thread nD τ).loc main_arg3)) slices_S80x80_S16x80_64_0 := by
  dsimp only [Gen.V, Gen.hostOps0]; after_results <;> rfl
/-- The first bias reshaped to one row. -/
theorem V_bias1 (c : Dev nD) : (V m c main_v3 : S1x80.Idx → EReal)
    = shapeCast S1x80 (m ((c : Thread nD τ).loc main_arg4)) shapeCasts_S80_S1x80 := by
  dsimp only [Gen.V, Gen.hostOps0]; after_results <;> rfl
theorem V_bias2 (c : Dev nD) : (V m c main_v4 : S1x16.Idx → EReal)
    = shapeCast S1x16 (m ((c : Thread nD τ).loc main_arg6)) shapeCasts_S16_S1x16 := by
  dsimp only [Gen.V, Gen.hostOps0]; after_results <;> rfl

/-! ## Each window's block at point `t` -/

theorem blk0 (c : Dev nD) (t : Fin cfg0.N) :
    (iblk m c 0 t : Vec Ideal S16000x32 .f32) = tile (m ((c : Thread nD τ).loc main_arg0)) (pt t) := by
  funext y
  show V m c main_arg0 (((cfg0.win 0).blk t).view.emb y) = (m ((c : Thread nD τ).loc main_arg0)) (ix2 (edgeRow (pt t) (y 0)) (y 1))
  rw [V_main_arg0]
  obtain ⟨⟨e0, e1⟩, -⟩ := idx_facts t
  refine congrArg _ (funext fun a => Fin.ext ?_)
  match a with
  | ⟨0, _⟩ => show win0_0.index t (0 : Fin 2) * 16000 + 1 * (y 0).val = 16000 * t.val + (y 0).val; rw [e0]; omega
  | ⟨1, _⟩ => show win0_0.index t (1 : Fin 2) * 32 + 1 * (y 1).val = (y 1).val; rw [e1]; omega

theorem blk1 (c : Dev nD) (t : Fin cfg0.N) :
    (iblk m c 1 t : Vec Ideal S16000x32 .f32) = tile (m ((c : Thread nD τ).loc main_arg1)) (pt t) := by
  funext y
  show V m c main_arg1 (((cfg0.win 1).blk t).view.emb y) = (m ((c : Thread nD τ).loc main_arg1)) (ix2 (edgeRow (pt t) (y 0)) (y 1))
  rw [V_main_arg1]
  obtain ⟨-, ⟨e0, e1⟩, -⟩ := idx_facts t
  refine congrArg _ (funext fun a => Fin.ext ?_)
  match a with
  | ⟨0, _⟩ => show win0_1.index t (0 : Fin 2) * 16000 + 1 * (y 0).val = 16000 * t.val + (y 0).val; rw [e0]; omega
  | ⟨1, _⟩ => show win0_1.index t (1 : Fin 2) * 32 + 1 * (y 1).val = (y 1).val; rw [e1]; omega

theorem blk2 (c : Dev nD) (t : Fin cfg0.N) :
    (iblk m c 2 t : Vec Ideal S16000x16 .f32) = tile (m ((c : Thread nD τ).loc main_arg2)) (pt t) := by
  funext y
  show V m c main_arg2 (((cfg0.win 2).blk t).view.emb y) = (m ((c : Thread nD τ).loc main_arg2)) (ix2 (edgeRow (pt t) (y 0)) (y 1))
  rw [V_main_arg2]
  obtain ⟨-, -, ⟨e0, e1⟩, -⟩ := idx_facts t
  refine congrArg _ (funext fun a => Fin.ext ?_)
  match a with
  | ⟨0, _⟩ => show win0_2.index t (0 : Fin 2) * 16000 + 1 * (y 0).val = 16000 * t.val + (y 0).val; rw [e0]; omega
  | ⟨1, _⟩ => show win0_2.index t (1 : Fin 2) * 16 + 1 * (y 1).val = (y 1).val; rw [e1]; omega

theorem blk3 (c : Dev nD) (t : Fin cfg0.N) :
    (iblk m c 3 t : Vec Ideal S32x80 .f32) = w1band (m ((c : Thread nD τ).loc main_arg3)) 0 h0 := by
  funext y
  obtain ⟨-, -, -, ⟨e0, e1⟩, -⟩ := idx_facts t
  have he : ((cfg0.win 3).blk t).view.emb y = y := funext fun a => Fin.ext (by
    match a with
    | ⟨0, _⟩ => show win0_3.index t (0 : Fin 2) * 32 + 1 * (y 0).val = (y 0).val; rw [e0]; omega
    | ⟨1, _⟩ => show win0_3.index t (1 : Fin 2) * 80 + 1 * (y 1).val = (y 1).val; rw [e1]; omega)
  show V m c main_v0 (((cfg0.win 3).blk t).view.emb y) = _
  rw [he, V_band0]
  exact extractStridedSlice_apply ![0, 0] (m ((c : Thread nD τ).loc main_arg3)) slices_S80x80_S32x80_0_0 y (ix2 (band 0 h0 (y 0)) (y 1)) fun a => by
    match a with
    | ⟨0, _⟩ => rfl
    | ⟨1, _⟩ => exact (Nat.zero_add _).symm

theorem blk4 (c : Dev nD) (t : Fin cfg0.N) :
    (iblk m c 4 t : Vec Ideal S32x80 .f32) = w1band (m ((c : Thread nD τ).loc main_arg3)) 32 h32 := by
  funext y
  obtain ⟨-, -, -, -, ⟨e0, e1⟩, -⟩ := idx_facts t
  have he : ((cfg0.win 4).blk t).view.emb y = y := funext fun a => Fin.ext (by
    match a with
    | ⟨0, _⟩ => show win0_4.index t (0 : Fin 2) * 32 + 1 * (y 0).val = (y 0).val; rw [e0]; omega
    | ⟨1, _⟩ => show win0_4.index t (1 : Fin 2) * 80 + 1 * (y 1).val = (y 1).val; rw [e1]; omega)
  show V m c main_v1 (((cfg0.win 4).blk t).view.emb y) = _
  rw [he, V_band32]
  exact extractStridedSlice_apply ![32, 0] (m ((c : Thread nD τ).loc main_arg3)) slices_S80x80_S32x80_32_0 y (ix2 (band 32 h32 (y 0)) (y 1)) fun a => by
    match a with
    | ⟨0, _⟩ => rfl
    | ⟨1, _⟩ => exact (Nat.zero_add _).symm

theorem blk5 (c : Dev nD) (t : Fin cfg0.N) :
    (iblk m c 5 t : Vec Ideal S16x80 .f32) = w1band (m ((c : Thread nD τ).loc main_arg3)) 64 h64 := by
  funext y
  obtain ⟨-, -, -, -, -, ⟨e0, e1⟩, -⟩ := idx_facts t
  have he : ((cfg0.win 5).blk t).view.emb y = y := funext fun a => Fin.ext (by
    match a with
    | ⟨0, _⟩ => show win0_5.index t (0 : Fin 2) * 16 + 1 * (y 0).val = (y 0).val; rw [e0]; omega
    | ⟨1, _⟩ => show win0_5.index t (1 : Fin 2) * 80 + 1 * (y 1).val = (y 1).val; rw [e1]; omega)
  show V m c main_v2 (((cfg0.win 5).blk t).view.emb y) = _
  rw [he, V_band64]
  exact extractStridedSlice_apply ![64, 0] (m ((c : Thread nD τ).loc main_arg3)) slices_S80x80_S16x80_64_0 y (ix2 (band 64 h64 (y 0)) (y 1)) fun a => by
    match a with
    | ⟨0, _⟩ => rfl
    | ⟨1, _⟩ => exact (Nat.zero_add _).symm

theorem blk6 (c : Dev nD) (t : Fin cfg0.N) :
    (iblk m c 6 t : Vec Ideal S1x80 .f32) = biasRow (m ((c : Thread nD τ).loc main_arg4)) := by
  refine funext fun (y : S1x80.Idx) => ?_
  obtain ⟨-, -, -, -, -, -, ⟨e0, e1⟩, -⟩ := idx_facts t
  have he : ((cfg0.win 6).blk t).view.emb y = y := funext fun a => Fin.ext (by
    match a with
    | ⟨0, _⟩ => show win0_6.index t (0 : Fin 2) * 1 + 1 * (y 0).val = (y 0).val; rw [e0]; omega
    | ⟨1, _⟩ => show win0_6.index t (1 : Fin 2) * 80 + 1 * (y 1).val = (y 1).val; rw [e1]; omega)
  show V m c main_v3 (((cfg0.win 6).blk t).view.emb y) = _
  rw [he, V_bias1]
  refine shapeCast_apply (s := S80) (t := S1x80) (m ((c : Thread nD τ).loc main_arg4)) shapeCasts_S80_S1x80 y (ix1 (y 1)) ?_
  have h0 : (y 0).val < 1 := (y 0).isLt
  have r1 : (S80.rowMajor (ix1 (y 1))).val = (y 1).val := Shape.rowMajor_val_one (d := ![80]) (ix1 (y 1))
  have r2 : (S1x80.rowMajor y).val = (y 0).val * 80 + (y 1).val := Shape.rowMajor_val_two (d := ![1, 80]) y
  rw [r1, r2]; omega

theorem blk7 (c : Dev nD) (t : Fin cfg0.N) :
    (iblk m c 7 t : Vec Ideal S80x16 .f32) = (m ((c : Thread nD τ).loc main_arg5)) := by
  funext y
  obtain ⟨-, -, -, -, -, -, -, ⟨e0, e1⟩, -⟩ := idx_facts t
  have he : ((cfg0.win 7).blk t).view.emb y = y := funext fun a => Fin.ext (by
    match a with
    | ⟨0, _⟩ => show win0_7.index t (0 : Fin 2) * 80 + 1 * (y 0).val = (y 0).val; rw [e0]; omega
    | ⟨1, _⟩ => show win0_7.index t (1 : Fin 2) * 16 + 1 * (y 1).val = (y 1).val; rw [e1]; omega)
  show V m c main_arg5 (((cfg0.win 7).blk t).view.emb y) = _
  rw [he, V_main_arg5]

theorem blk8 (c : Dev nD) (t : Fin cfg0.N) :
    (iblk m c 8 t : Vec Ideal S1x16 .f32) = biasRow (m ((c : Thread nD τ).loc main_arg6)) := by
  refine funext fun (y : S1x16.Idx) => ?_
  obtain ⟨-, -, -, -, -, -, -, -, ⟨e0, e1⟩, -⟩ := idx_facts t
  have he : ((cfg0.win 8).blk t).view.emb y = y := funext fun a => Fin.ext (by
    match a with
    | ⟨0, _⟩ => show win0_8.index t (0 : Fin 2) * 1 + 1 * (y 0).val = (y 0).val; rw [e0]; omega
    | ⟨1, _⟩ => show win0_8.index t (1 : Fin 2) * 16 + 1 * (y 1).val = (y 1).val; rw [e1]; omega)
  show V m c main_v4 (((cfg0.win 8).blk t).view.emb y) = _
  rw [he, V_bias2]
  refine shapeCast_apply (s := S16) (t := S1x16) (m ((c : Thread nD τ).loc main_arg6)) shapeCasts_S16_S1x16 y (ix1 (y 1)) ?_
  have h0 : (y 0).val < 1 := (y 0).isLt
  have r1 : (S16.rowMajor (ix1 (y 1))).val = (y 1).val := Shape.rowMajor_val_one (d := ![16]) (ix1 (y 1))
  have r2 : (S1x16.rowMajor y).val = (y 0).val * 16 + (y 1).val := Shape.rowMajor_val_two (d := ![1, 16]) y
  rw [r1, r2]; omega

/-! ## What a point writes is its tile of `G` -/

theorem hz : (![0, 0] : Fin 2 → Nat) = fun _ => 0 := funext fun a => by fin_cases a <;> rfl

/-- The body's store over tile `q` of the edge arrays, the bands of `w1`, the bias rows and `w2` is tile `q` of `G`:
    the body's formula at an index is `G`'s, with edge 16000·q + p for row `p`. -/
theorem store_tile (X0 X1 : Mat 1600000 32) (X2 : Mat 1600000 16) (w1 : Mat 80 80) (b1 : Row 80) (w2 : Mat 80 16) (b2 : Row 16)
    (q : Fin 100) :
    (k0_pay1 (F := Ideal) (tile X0 q) (tile X1 q) (tile X2 q) (w1band w1 0 h0) (w1band w1 32 h32) (w1band w1 64 h64)
        (biasRow b1) w2 (biasRow b2) : Vec Ideal S16000x16 .f32)
      = fun y => G X0 X1 X2 w1 b1 w2 b2 (ix2 (edgeRow q (y 0)) (y 1)) := by
  funext y
  obtain ⟨p, j, rfl⟩ : ∃ (p : Fin 16000) (j : Fin 16), y = ix2 p j := ⟨y 0, y 1, eq_ix2 y⟩
  rw [pay_apply]
  rfl

/-- WHAT POINT `t` WRITES BACK is block `t` of `G` of the argument arrays. -/
theorem flushed_eq (c : Dev nD) (t : Fin cfg0.N) :
    (dats m 0 c).flushed 9 t = ((cfg0.win 9).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Cert.KernelIdeal.Value.flushed9]
  unfold out0_9
  rw [View.canon_unit_zero hz]
  simp only [View.ld_unit_zero (S := S16000x32) hz, View.ld_unit_zero (S := S16000x16) hz, View.ld_unit_zero (S := S32x80) hz,
    View.ld_unit_zero (S := S16x80) hz, View.ld_unit_zero (S := S1x80) hz, View.ld_unit_zero (S := S80x16) hz,
    View.ld_unit_zero (S := S1x16) hz]
  rw [blk0, blk1, blk2, blk3, blk4, blk5, blk6, blk7, blk8, store_tile]
  obtain ⟨-, -, -, -, -, -, -, -, -, ⟨e0, e1⟩⟩ := idx_facts t
  funext y
  show G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (edgeRow (pt t) (y 0)) (y 1)) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y)
  refine congrArg _ (funext fun a => Fin.ext ?_)
  match a with
  | ⟨0, _⟩ => show 16000 * t.val + (y 0).val = win0_9.index t (0 : Fin 2) * 16000 + 1 * (y 0).val; rw [e0]; omega
  | ⟨1, _⟩ => show (y 1).val = win0_9.index t (1 : Fin 2) * 16 + 1 * (y 1).val; rw [e1]; omega

/-! ## The tiles fill the result array -/

/-- An index of the result array is in point `t`'s block iff each coordinate is in the block's range on its axis. -/
theorem mem_blk (t : Fin cfg0.N) (i : S1600000x16.Idx) :
    i ∈ ((cfg0.win 9).blk t).view.set ↔ ∀ a : Fin 2, win0_9.index t a * S16000x16.size a ≤ (i a).val ∧ (i a).val < win0_9.index t a * S16000x16.size a + S16000x16.size a := by
  show i ∈ ((View.whole main_v5).slice (win0_9.rect t)).set ↔ _
  rw [View.set_slice_whole, Rect.mem_set_unit]
  exact Iff.rfl

/-- Edge `r` is in tile `r / 16000`. -/
theorem cover (i : S1600000x16.Idx) :
    ∃ t : Fin cfg0.N, (cfg0.win 9).flush t = true ∧ i ∈ ((cfg0.win 9).blk t).view.set := by
  have hi0 : (i 0).val < 1600000 := (i 0).isLt
  have hi1 : (i 1).val < 16 := (i 1).isLt
  have hN : (i 0).val / 16000 < cfg0.N := by rw [show cfg0.N = 100 from N_0]; omega
  refine ⟨⟨(i 0).val / 16000, hN⟩, flush0_9 _, ?_⟩
  rw [mem_blk]
  obtain ⟨-, -, -, -, -, -, -, -, -, ⟨e0, e1⟩⟩ := idx_facts ⟨(i 0).val / 16000, hN⟩
  intro a
  match a with
  | ⟨0, _⟩ =>
    show win0_9.index ⟨(i 0).val / 16000, hN⟩ (0 : Fin 2) * 16000 ≤ (i 0).val ∧ (i 0).val < win0_9.index ⟨(i 0).val / 16000, hN⟩ (0 : Fin 2) * 16000 + 16000
    rw [e0]; show (i 0).val / 16000 * 16000 ≤ (i 0).val ∧ (i 0).val < (i 0).val / 16000 * 16000 + 16000; omega
  | ⟨1, _⟩ =>
    show win0_9.index ⟨(i 0).val / 16000, hN⟩ (1 : Fin 2) * 16 ≤ (i 1).val ∧ (i 1).val < win0_9.index ⟨(i 0).val / 16000, hN⟩ (1 : Fin 2) * 16 + 16
    rw [e1]; omega

/-! ## The run -/

/-- After the run the result array is `G` of the arguments. -/
theorem final (c : Dev nD) : (dats m 0 c).arrAt 9 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 9 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_eq m c t) cover

/-- Every weakly fair execution of the idealized kernel terminates with the result array at `G` of the arguments
    and the arguments unchanged. -/
theorem run : θ_run defs (onTc (τ := τ) (main (F := Ideal))) ⟨m, fun _ => 0, ρ⟩ fun r => ∀ c : Dev nD,
      r.2.mem ((c : Thread nD τ).loc main_v5) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.EdgeMlp.Kernel

end
-- ==== Proof.lean ====
/-
  An edge model of a graph network: for each of 1,600,000 edges the 80-vector made of the edge's source features
  (32), target features (32) and attributes (16) goes through two dense layers with rectifiers,
  `relu (relu (x · w1 + b1) · w2 + b2)`, giving 16 outputs per edge.

  The kernel never forms the 80-vector. It cuts `w1` into its rows 0–31, 32–63 and 64–79 before the call and, tile
  by tile of 16,000 edges, adds the three products source · w1[0:32], target · w1[32:64], attr · w1[64:80]; the
  reference joins the three arrays and multiplies once. On the extended reals both are the function
  `Cert.EdgeMlp.G` of the seven arguments (EdgeMlpSpec.lean): a sum of 80 terms is the sum of its three bands
  (`sum_bands`), which uses only that addition is commutative and associative, so the inputs' finiteness is never
  needed. The biases, the rectifiers (a maximum with the same zero word on both sides) and the second layer are
  the same operations in both programs, read at an index.

  EdgeMlpRef.lean: the reference's result is `G`. EdgeMlpBody.lean: what one grid point stores, at an index.
  EdgeMlpKernel.lean: each point writes its tile of `G`, the 100 tiles fill the result, so the kernel's run ends
  at `G`. Below, the five claims. The ideal pass rewrote nothing in the kernel, so `preserves` is `True`.
-/
import proofs.«153449_j2199023255661_1_alg».proof.Defs
import proofs.«153449_j2199023255661_1_alg».proof.Proof.Gen.Kernel
import proofs.«153449_j2199023255661_1_alg».proof.Proof.Gen.Kernel.Skeleton
import proofs.«153449_j2199023255661_1_alg».proof.Proof.Gen.Kernel.Launch
import proofs.«153449_j2199023255661_1_alg».proof.Proof.Gen.Kernel.Points
import proofs.«153449_j2199023255661_1_alg».proof.Proof.Gen.Kernel.Frame
import proofs.«153449_j2199023255661_1_alg».proof.Proof.Gen.KernelIdeal
import proofs.«153449_j2199023255661_1_alg».proof.Proof.Gen.KernelIdeal.Skeleton
import proofs.«153449_j2199023255661_1_alg».proof.Proof.Gen.KernelIdeal.Launch
import proofs.«153449_j2199023255661_1_alg».proof.Proof.Gen.KernelIdeal.Points
import proofs.«153449_j2199023255661_1_alg».proof.Proof.Gen.KernelIdeal.Frame
import proofs.«153449_j2199023255661_1_alg».proof.Proof.Gen.ReferenceIdeal
import proofs.«153449_j2199023255661_1_alg».proof.Proof.Gen.Pre_finite_inputs
import proofs.«153449_j2199023255661_1_alg».proof.Proof.Gen.KernelIdeal.Value
import proofs.«153449_j2199023255661_1_alg».proof.Proof.Gen.ReferenceIdeal.Run
import proofs.«153449_j2199023255661_1_alg».proof.Proof.Gen.ReferenceIdeal.Read
import proofs.«153449_j2199023255661_1_alg».proof.Proof.EdgeMlpRef
import proofs.«153449_j2199023255661_1_alg».proof.Proof.EdgeMlpKernel
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the seven arguments the idealized kernel and the idealized reference both end with
    the result array at `G` of those arguments. -/
theorem algebraic : Cert.algebraic_KernelIdeal_ReferenceIdeal := by
  intro m ρ m' ρ' _ hagree
  refine ⟨fun c => Cert.EdgeMlp.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.EdgeMlp.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v10_eq, Cert.EdgeMlp.Ref.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
